-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x16 : Shape := ⟨2, ![50000, 16]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : FVec F S50000x128 .f32) (main_arg2 : IVec S50000x16 32) (main_arg3 : FVec F S128x64 .f32) (main_arg4 : FVec F S64 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x128 : Shape := ⟨2, ![50000, 128]⟩
abbrev S50000x16 : Shape := ⟨2, ![50000, 16]⟩
abbrev S128x64 : Shape := ⟨2, ![128, 64]⟩
abbrev S64 : Shape := ⟨1, ![64]⟩
abbrev S50000x64 : Shape := ⟨2, ![50000, 64]⟩
abbrev S2000x128 : Shape := ⟨2, ![2000, 128]⟩
abbrev S2000x64 : Shape := ⟨2, ![2000, 64]⟩
abbrev S1x64 : Shape := ⟨2, ![1, 64]⟩
abbrev S_ : Shape := ⟨0, ![]⟩
abbrev S50000x16x1 : Shape := ⟨3, ![50000, 16, 1]⟩
abbrev S50000x16x64 : Shape := ⟨3, ![50000, 16, 64]⟩

abbrev nBuf : Space → Nat
  | .hbm => 20
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x16, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S50000x64, .f32⟩
  | .hbm, ⟨8, _⟩ => ⟨S_, .i32⟩
  | .hbm, ⟨9, _⟩ => ⟨S50000x16, .i32⟩
  | .hbm, ⟨10, _⟩ => ⟨S50000x16, .i1⟩
  | .hbm, ⟨11, _⟩ => ⟨S_, .i32⟩
  | .hbm, ⟨12, _⟩ => ⟨S50000x16, .i32⟩
  | .hbm, ⟨13, _⟩ => ⟨S50000x16, .i32⟩
  | .hbm, ⟨14, _⟩ => ⟨S50000x16, .i32⟩
  | .hbm, ⟨15, _⟩ => ⟨S50000x16x1, .i32⟩
  | .hbm, ⟨16, _⟩ => ⟨S50000x16x64, .f32⟩
  | .hbm, ⟨17, _⟩ => ⟨S_, .f32⟩
  | .hbm, ⟨18, _⟩ => ⟨S50000x64, .f32⟩
  | .hbm, ⟨19, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S64, .f32⟩
  | .local _ .vmem, ⟨4, _⟩ => ⟨S2000x64, .f32⟩
  | .local _ .vmem, ⟨5, _⟩ => ⟨S2000x64, .f32⟩
  | .local _ .vmem, ⟨6, _⟩ => ⟨S2000x128, .f32⟩
  | .local _ .vmem, ⟨7, _⟩ => ⟨S2000x128, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S128x64, .f32⟩
  | .local _ .vmem, ⟨13, _⟩ => ⟨S64, .f32⟩
  | .local _ .vmem, ⟨14, _⟩ => ⟨S2000x64, .f32⟩
  | .local _ .vmem, ⟨15, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x64_S50000x64_d1 : S50000x16x64.ReducesTo [1] S50000x64
  h_S_ : 0 < S_.numel
  shapeCasts_S2000x64_S2000x64 : S2000x64.ShapeCasts S2000x64
  dot_S2000x128_S128x64_S2000x64_1_0_0_1_n_n_wf : DotDims.WF S2000x128 S128x64 S2000x64 [1] [0] [0] [1] [] []
  gather_S50000x64_S50000x16x1_S50000x16x64_2_0_n_n_0_2_164_wf : GatherDims.WF S50000x64 S50000x16x1 S50000x16x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S50000x16x1_S50000x16x64_2_0_n_n_0_2_164 : GatherDims S50000x64 S50000x16x1 S50000x16x64 where
  offsetDims := [2]
  collapsedSliceDims := [0]
  operandBatchingDims := []
  startIndicesBatchingDims := []
  startIndexMap := [0]
  indexVectorDim := 2
  sliceSizes := ![1, 64]
  wf := gather_S50000x64_S50000x16x1_S50000x16x64_2_0_n_n_0_2_164_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x16 : Shape := ⟨2, ![50000, 16]⟩
abbrev S128x64 : Shape := ⟨2, ![128, 64]⟩
abbrev S64 : Shape := ⟨1, ![64]⟩
abbrev S50000x64 : Shape := ⟨2, ![50000, 64]⟩
abbrev S1x64 : Shape := ⟨2, ![1, 64]⟩
abbrev S_ : Shape := ⟨0, ![]⟩
abbrev S50000x16x1 : Shape := ⟨3, ![50000, 16, 1]⟩
abbrev S50000x16x64 : Shape := ⟨3, ![50000, 16, 64]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x16, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S50000x64, .f32⟩
  | .hbm, ⟨8, _⟩ => ⟨S1x64, .f32⟩
  | .hbm, ⟨9, _⟩ => ⟨S50000x64, .f32⟩
  | .hbm, ⟨10, _⟩ => ⟨S50000x64, .f32⟩
  | .hbm, ⟨11, _⟩ => ⟨S_, .i32⟩
  | .hbm, ⟨12, _⟩ => ⟨S50000x16, .i32⟩
  | .hbm, ⟨13, _⟩ => ⟨S50000x16, .i1⟩
  | .hbm, ⟨14, _⟩ => ⟨S_, .i32⟩
  | .hbm, ⟨15, _⟩ => ⟨S50000x16, .i32⟩
  | .hbm, ⟨16, _⟩ => ⟨S50000x16, .i32⟩
  | .hbm, ⟨17, _⟩ => ⟨S50000x16, .i32⟩
  | .hbm, ⟨18, _⟩ => ⟨S50000x16x1, .i32⟩
  | .hbm, ⟨19, _⟩ => ⟨S50000x16x64, .f32⟩
  | .hbm, ⟨20, _⟩ => ⟨S_, .f32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .f32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S_, .f32⟩
  | .hbm, ⟨35, _⟩ => ⟨S50000x64, .f32⟩
  | .hbm, ⟨36, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  reducesTo_S50000x16x64_S50000x64_d1 : S50000x16x64.ReducesTo [1] S50000x64
  h_S_ : 0 < S_.numel
  bcast_S_S50000x64 : S_.BroadcastsInDim S50000x64 (![] : Fin 0 → Fin S50000x64.rank)
  dot_S50000x128_S128x64_S50000x64_1_0_0_1_n_n_wf : DotDims.WF S50000x128 S128x64 S50000x64 [1] [0] [0] [1] [] []
  gather_S50000x64_S50000x16x1_S50000x16x64_2_0_n_n_0_2_164_wf : GatherDims.WF S50000x64 S50000x16x1 S50000x16x64 [2] [0] [] [0] [] 2 ![1, 64]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S50000x16x1_S50000x16x64_2_0_n_n_0_2_164 : GatherDims S50000x64 S50000x16x1 S50000x16x64 where
  offsetDims := [2]
  collapsedSliceDims := [0]
  operandBatchingDims := []
  startIndicesBatchingDims := []
  startIndexMap := [0]
  indexVectorDim := 2
  sliceSizes := ![1, 64]
  wf := gather_S50000x64_S50000x16x1_S50000x16x64_2_0_n_n_0_2_164_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDense.lean ====
/-
  A dense layer read as one whole-array function (a general lemma: nothing here depends on a program).

  For x : [A, K], w : [K, C] and b : [C] the affine map is (x·w + b)[a, c] = Σ_{k<K} x[a, k]·w[k, c] + b[c], and its
  rectified form is max(·, 0).  Two spellings compute them at the ideal values.  The matrix unit's: both operands narrowed
  to bf16 (the identity on the extended reals), the product into a zero accumulator, the bias as one row broadcast down the
  rows, the rectifier against a scalar splat.  The host's: dot_general, the bias through two broadcast_in_dim, the
  rectifier against a broadcast scalar constant.  Both are the same function of (x, w, b), entry by entry; the zero the
  rectifier compares with is kept as the word's ideal value on both sides and never evaluated.
-/
import Idealize.ShloMosaic.Lib.ValueIdx
import Idealize.ShloMosaic.Lib.Pipeline.Value
import Idealize.ShloMosaic.PureOps.Ideal.Laws
import proofs.«150113_j87488483819569_1_alg».proof.Proof.LibMatmul
import proofs.«150113_j87488483819569_1_alg».proof.Proof.LibLayout

noncomputable section

namespace Cert.Lib.Dense

open Idealize.ShloMosaic Idealize.ShloMosaic.ValueIdx

variable {A K C : Nat}

/-- (x·w + b) at every entry: row a of x against column c of w, plus the bias of column c. -/
def affine (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => (∑ k : Fin K, x (ix2 (i 0 : Fin A) k) * w (ix2 k (i 1 : Fin C))) + b (ix1 (i 1 : Fin C))

/-- max(x·w + b, 0) at every entry, the zero being the ideal value of the all-zero f32 word. -/
def rectified (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => max (affine x w b i) (Ideal.ofBits .f32 0x00000000#32)

theorem affine_apply (x : (⟨2, ![A, K]⟩ : Shape).Idx → EReal) (w : (⟨2, ![K, C]⟩ : Shape).Idx → EReal)
    (b : (⟨1, ![C]⟩ : Shape).Idx → EReal) (a : Fin A) (c : Fin C) :
    affine x w b (ix2 a c) = (∑ k : Fin K, x (ix2 a k) * w (ix2 k c)) + b (ix1 c) := rfl

theorem rectified_apply (x : (⟨2, ![A, K]⟩ : Shape).Idx → EReal) (w : (⟨2, ![K, C]⟩ : Shape).Idx → EReal)
    (b : (⟨1, ![C]⟩ : Shape).Idx → EReal) (a : Fin A) (c : Fin C) :
    rectified x w b (ix2 a c)
      = max ((∑ k : Fin K, x (ix2 a k) * w (ix2 k c)) + b (ix1 c)) (Ideal.ofBits .f32 0x00000000#32) := rfl

/-! ## The matrix unit's spelling -/

/-- Narrowed operands into a zero accumulator, plus the bias row broadcast down: the affine map. -/
theorem mxu_affine (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    addf (matmul (DotDims.plain A K C) prec (truncf .bf16 (shapeCast ⟨2, ![A, K]⟩ x hx) hlt)
        (truncf .bf16 (shapeCast ⟨2, ![K, C]⟩ w hw) hlt) (constant ⟨2, ![A, C]⟩ .f32 0x00000000#32))
      (broadcastTo ⟨2, ![A, C]⟩ (shapeCast ⟨2, ![1, C]⟩ b h1) h2)
    = affine x w b := by
  funext i
  obtain ⟨a, c, rfl⟩ : ∃ (a : Fin A) (c : Fin C), i = ix2 a c := ⟨i 0, i 1, eq_ix2 i⟩
  rw [addf_apply, affine_apply]
  show FloatOps.matmul (DotDims.plain A K C) prec _ _ (constant ⟨2, ![A, C]⟩ .f32 0x00000000#32) (ix2 a c) + _ = _
  rw [Cert.Lib.Matmul.matmul_zero_apply, Cert.Lib.Layout.bcastRow_apply]
  simp only [truncf_apply, shapeCast_self]

/-- The same against a scalar splat of zero: the rectified map. -/
theorem mxu_rectified (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    maximumf (addf (matmul (DotDims.plain A K C) prec (truncf .bf16 (shapeCast ⟨2, ![A, K]⟩ x hx) hlt)
          (truncf .bf16 (shapeCast ⟨2, ![K, C]⟩ w hw) hlt) (constant ⟨2, ![A, C]⟩ .f32 0x00000000#32))
        (broadcastTo ⟨2, ![A, C]⟩ (shapeCast ⟨2, ![1, C]⟩ b h1) h2))
      (broadcast ⟨2, ![A, C]⟩ (Scalar.ofBits (F := Ideal) .f32 0x00000000#32))
    = rectified x w b := by
  funext i
  rw [maximumf_apply, mxu_affine]
  rfl

/-! ## The host's spelling -/

/-- A vector of C entries broadcast to one row and then down A rows, at (a, c), is the vector at c. -/
theorem hostBias_apply (b : (⟨1, ![C]⟩ : Shape).Idx → EReal)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2)) (a : Fin A) (c : Fin C) :
    broadcastInDim ⟨2, ![A, C]⟩ (![0, 1] : Fin 2 → Fin 2) hb2
        (broadcastInDim ⟨2, ![1, C]⟩ (![1] : Fin 1 → Fin 2) hb1 b) (ix2 a c) = b (ix1 c) := by
  refine (broadcastInDim_apply (![0, 1] : Fin 2 → Fin 2) hb2 _ (ix2 a c) (ix2 (0 : Fin 1) c) ?_).trans
    (broadcastInDim_apply (![1] : Fin 1 → Fin 2) hb1 b (ix2 (0 : Fin 1) c) (ix1 c) ?_)
  · intro d
    match d with
    | ⟨0, _⟩ => simp
    | ⟨1, _⟩ =>
      show c.val = if C = 1 then 0 else c.val
      split
      · have := c.isLt; omega
      · rfl
  · intro d
    match d with
    | ⟨0, _⟩ =>
      show c.val = if C = 1 then 0 else c.val
      split
      · have := c.isLt; omega
      · rfl

/-- dot_general plus the bias through two broadcast_in_dim: the affine map. -/
theorem host_affine (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (prec : Option ContractPrecision) :
    addf (Host.dotGeneral (DotDims.plain A K C) prec x w)
      (broadcastInDim ⟨2, ![A, C]⟩ (![0, 1] : Fin 2 → Fin 2) hb2
        (broadcastInDim ⟨2, ![1, C]⟩ (![1] : Fin 1 → Fin 2) hb1 b))
    = affine x w b := by
  funext i
  obtain ⟨a, c, rfl⟩ : ∃ (a : Fin A) (c : Fin C), i = ix2 a c := ⟨i 0, i 1, eq_ix2 i⟩
  rw [addf_apply, affine_apply, hostBias_apply]
  show FloatOps.dotGeneral (DotDims.plain A K C) prec .single x w (ix2 a c) + _ = _
  rw [Cert.Lib.Matmul.dotGeneral_apply]

/-- The same against a broadcast scalar constant zero: the rectified map. -/
theorem host_rectified (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (h0 : (⟨0, ![]⟩ : Shape).BroadcastsInDim ⟨2, ![A, C]⟩ (![] : Fin 0 → Fin 2))
    (prec : Option ContractPrecision) :
    maximumf (addf (Host.dotGeneral (DotDims.plain A K C) prec x w)
        (broadcastInDim ⟨2, ![A, C]⟩ (![0, 1] : Fin 2 → Fin 2) hb2
          (broadcastInDim ⟨2, ![1, C]⟩ (![1] : Fin 1 → Fin 2) hb1 b)))
      (broadcastInDim ⟨2, ![A, C]⟩ (![] : Fin 0 → Fin 2) h0 (constant (F := Ideal) ⟨0, ![]⟩ .f32 0x00000000#32))
    = rectified x w b := by
  funext i
  rw [maximumf_apply, host_affine,
    broadcastInDim_apply (![] : Fin 0 → Fin 2) h0 _ i ix0 (fun d => d.elim0)]
  rfl

end Cert.Lib.Dense

end
-- ==== Proof.Region0.lean ====
/-
  The first pallas_call, read as a value: the projection h = x·w + b of all 50000 rows.

  Grid point t of 25 fetches rows 2000·t … 2000·t + 1999 of x (all 128 columns) and the whole of w and b, and writes back
  rows 2000·t … 2000·t + 1999 of the result (all 64 columns).  The body's value is the affine map of its blocks, and an
  entry of the affine map depends on one row of x only, so block t of the result IS block t of the affine map of the whole
  arrays; the 25 blocks tile the 50000 rows, so the result array ends holding the affine map.
-/
import proofs.«150113_j87488483819569_1_alg».proof.Proof.Gen.KernelIdeal.Frame
import proofs.«150113_j87488483819569_1_alg».proof.Proof.LibDense
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.Dense

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the affine map of its three loaded blocks. -/
theorem pay_eq (x : Vec Ideal S2000x128 .f32) (w : Vec Ideal S128x64 .f32) (b : Vec Ideal S64 .f32) :
    k0_pay1 (F := Ideal) x w b = affine (A := 2000) (K := 128) (C := 64) x w b := by
  have e := mxu_affine (A := 2000) (K := 128) (C := 64) x w b rfl rfl bitsLt_bf16_f32
    shapeCasts_S64_S1x64 broadcasts_S1x64_S2000x64 none
  simp only [shapeCast_self] at e
  exact e

/-- An entry of the affine map reads one row of the left operand: if a block's row is the array's row, and the other two
    operands are the same, the block's affine map at that row is the array's. -/
theorem affine_rows (X : S50000x128.Idx → EReal) (W : S128x64.Idx → EReal) (B : S64.Idx → EReal)
    (x : S2000x128.Idx → EReal) (w : S128x64.Idx → EReal) (b : S64.Idx → EReal)
    (j : S2000x64.Idx) (i : S50000x64.Idx)
    (hx : ∀ k : Fin 128, x (ix2 (j 0) k) = X (ix2 (i 0) k)) (hw : w = W) (hb : b = B)
    (hcol : (j 1).val = (i 1).val) :
    affine (A := 2000) (K := 128) (C := 64) x w b j = affine (A := 50000) (K := 128) (C := 64) X W B i := by
  subst hw hb
  have hc : (j 1 : Fin 64) = (i 1 : Fin 64) := Fin.ext hcol
  show (∑ k : Fin 128, x (ix2 (j 0 : Fin 2000) k) * w (ix2 k (j 1 : Fin 64))) + b (ix1 (j 1 : Fin 64))
    = (∑ k : Fin 128, X (ix2 (i 0 : Fin 50000) k) * w (ix2 k (i 1 : Fin 64))) + b (ix1 (i 1 : Fin 64))
  rw [hc]
  simp only [hx]

/-- The printed index maps over the grid: the row-blocked windows are at block (t, 0), the whole-array windows at the
    origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point t writes back is block t of the affine map of the arrays as the region finds them. -/
theorem flushed_eq (c : Dev nD) (t : Fin cfg0.N) :
    (dat0 V c).flushed 3 t = ((cfg0.win 3).blk t).view.read (Elt Ideal)
      (affine (A := 50000) (K := 128) (C := 64) (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x64) hz2, View.ld_unit_zero (S := S64) hz1]
  rw [pay_eq]
  obtain ⟨e00, e01, e10, e11, e20, e30, e31⟩ := idx_facts t
  funext j
  refine affine_rows (V c main_arg0) (V c main_arg3) (V c main_arg4) (iblk0 V c 0 t) (iblk0 V c 1 t) (iblk0 V c 2 t) j
    (((cfg0.win 3).blk t).view.emb j) ?_ ?_ ?_ ?_
  · intro k
    show V c main_arg0 (((cfg0.win 0).blk t).view.emb (ix2 (j 0) k)) = V c main_arg0 _
    refine congrArg (V c main_arg0) (funext fun a => Fin.ext ?_)
    match a with
    | ⟨0, _⟩ =>
      show win0_0.index t (0 : Fin 2) * 2000 + 1 * (j 0).val = win0_3.index t (0 : Fin 2) * 2000 + 1 * (j 0).val
      rw [e00, e30]
    | ⟨1, _⟩ =>
      show win0_0.index t (1 : Fin 2) * 128 + 1 * k.val = k.val
      rw [e01]; omega
  · funext y
    show V c main_arg3 (((cfg0.win 1).blk t).view.emb y) = V c main_arg3 y
    refine congrArg (V c main_arg3) (funext fun a => Fin.ext ?_)
    match a with
    | ⟨0, _⟩ => show win0_1.index t (0 : Fin 2) * 128 + 1 * (y 0).val = (y 0).val; rw [e10]; omega
    | ⟨1, _⟩ => show win0_1.index t (1 : Fin 2) * 64 + 1 * (y 1).val = (y 1).val; rw [e11]; omega
  · funext y
    show V c main_arg4 (((cfg0.win 2).blk t).view.emb y) = V c main_arg4 y
    refine congrArg (V c main_arg4) (funext fun a => Fin.ext ?_)
    match a with
    | ⟨0, _⟩ => show win0_2.index t (0 : Fin 1) * 64 + 1 * (y 0).val = (y 0).val; rw [e20]; omega
  · show (j 1).val = win0_3.index t (1 : Fin 2) * 64 + 1 * (j 1).val
    rw [e31]; omega

/-- An index of the result array is in point t's block iff each coordinate is in the block's range on its axis. -/
theorem mem_blk (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v0).slice (win0_3.rect t)).set ↔ _
  rw [View.set_slice_whole, Rect.mem_set_unit]
  exact Iff.rfl

/-- Row r of the result is in the block of point r / 2000. -/
theorem cover (i : S50000x64.Idx) :
    ∃ t : Fin cfg0.N, (cfg0.win 3).flush t = true ∧ i ∈ ((cfg0.win 3).blk t).view.set := by
  have h0 : (i 0).val < 50000 := (i 0).isLt
  have h1 : (i 1).val < 64 := (i 1).isLt
  have hN : cfg0.N = 25 := N_0
  let t : Fin cfg0.N := ⟨(i 0).val / 2000, by rw [hN]; omega⟩
  obtain ⟨-, -, -, -, -, e30, e31⟩ := idx_facts t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    rw [e30]; show (i 0).val / 2000 * 2000 ≤ (i 0).val ∧ (i 0).val < (i 0).val / 2000 * 2000 + 2000; omega
  | ⟨1, _⟩ =>
    show win0_3.index t (1 : Fin 2) * 64 ≤ (i 1).val ∧ (i 1).val < win0_3.index t (1 : Fin 2) * 64 + 64
    rw [e31]; omega

/-- The result array after the region: the affine map of the arrays the region found. -/
theorem final (c : Dev nD) :
    (dat0 V c).arrAt 3 cfg0.N
      = affine (A := 50000) (K := 128) (C := 64) (V c main_arg0) (V c main_arg3) (V c main_arg4) :=
  (dat0 V c).arrAt_eq_of_cover 3 _ (fun t _ => flushed_eq V c t) cover

end Cert.KernelIdeal.Region0

end
-- ==== Proof.Spec.lean ====
/-
  The Laplacian-with-skip layer as one whole-array function, entry by entry, over the extended reals.

  For node features h : [N, C], neighbour sums s : [N, C] and a skip branch z : [N, C] the layer is
      out[i] = max ((16·h[i] − s[i]) / 16 + z[i], 0).
  One program spells the normalisation as a product with the float 0.0625, the other as a quotient by the float 16.0.
  The float 16.0 denotes the real 16 and the float 0.0625 the real 1/16, and on the extended reals a quotient by a
  nonzero real IS the product with its reciprocal (also at ±∞), so both spellings are the same function; no finiteness
  of the inputs is used.
-/
import Idealize.ShloMosaic.PureOps.Ideal
import Idealize.ShloMosaic.Lib.ValueIdx

noncomputable section

namespace Cert.Spec

open Idealize.ShloMosaic

/-- The float 16.0 denotes the real 16. -/
theorem ofBits_16 : Ideal.ofBits .f32 0x41800000#32 = ((16 : ℝ) : EReal) := by
  simp [Ideal.ofBits, Ideal.ieee, -EReal.coe_mul]; norm_num

/-- The float 0.0625 denotes the real 1/16. -/
theorem ofBits_sixteenth : Ideal.ofBits .f32 0x3D800000#32 = ((1 / 16 : ℝ) : EReal) := by
  simp [Ideal.ofBits, Ideal.ieee, -EReal.coe_mul]; norm_num

/-- Dividing by the float 16.0 is multiplying by the float 0.0625, on every extended real. -/
theorem div16_eq_mul (x : EReal) :
    Ideal.div x (Ideal.ofBits .f32 0x41800000#32) = x * Ideal.ofBits .f32 0x3D800000#32 := by
  rw [ofBits_16, ofBits_sixteenth]
  exact Ideal.div_coe (by norm_num : (16 : ℝ) ≠ 0) x

variable {S : Shape}

/-- The layer at every entry, with the normalisation spelt as the product with 0.0625 and every float literal kept as
    the extended real its word denotes. -/
def lapSkip (h s z : S.Idx → EReal) : S.Idx → EReal := fun i =>
  max ((Ideal.ofBits .f32 0x41800000#32 * h i - s i) * Ideal.ofBits .f32 0x3D800000#32 + z i)
    (Ideal.ofBits .f32 0x00000000#32)

theorem lapSkip_apply (h s z : S.Idx → EReal) (i : S.Idx) :
    lapSkip h s z i
      = max ((Ideal.ofBits .f32 0x41800000#32 * h i - s i) * Ideal.ofBits .f32 0x3D800000#32 + z i)
          (Ideal.ofBits .f32 0x00000000#32) := rfl

/-- The same with the normalisation spelt as the quotient by 16.0. -/
theorem lapSkip_div (h s z : S.Idx → EReal) (i : S.Idx) :
    max (Ideal.div (Ideal.ofBits .f32 0x41800000#32 * h i - s i) (Ideal.ofBits .f32 0x41800000#32) + z i)
        (Ideal.ofBits .f32 0x00000000#32)
      = lapSkip h s z i := by
  rw [div16_eq_mul]; rfl

end Cert.Spec

end
-- ==== Proof.Region1.lean ====
/-
  The second pallas_call, read as a value: out = max ((16·h − s)·0.0625 + (g·w + b), 0) over all 50000 rows.

  Grid point t of 25 fetches rows 2000·t … 2000·t + 1999 of g (128 columns), of h and of s (64 columns), and the whole of w
  and b, and writes back the same rows of the result.  The body's value at an entry reads h and s at that entry and one
  row of g, so block t of the result is block t of the whole-array function; the 25 blocks tile the rows.
-/
import proofs.«150113_j87488483819569_1_alg».proof.Proof.Region0
import proofs.«150113_j87488483819569_1_alg».proof.Proof.Spec

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.Dense Cert.Spec
open Cert.KernelIdeal.Region0 (hz1 hz2 affine_rows)

variable (V : (c : Dev nD) → (b : Ref sig .tc) → Buf (Elt Ideal) ((c : Thread nD τ).loc b))

/-- The body's stored value: the Laplacian-with-skip layer of the h and s blocks, its skip branch the affine map of
    the g block with the whole w and b. -/
theorem pay_eq (x : Vec Ideal S2000x128 .f32) (w : Vec Ideal S128x64 .f32) (b : Vec Ideal S64 .f32)
    (h s : Vec Ideal S2000x64 .f32) :
    k1_pay1 (F := Ideal) x w b h s = lapSkip h s (affine (A := 2000) (K := 128) (C := 64) x w b) := by
  rw [← Region0.pay_eq x w b]
  unfold k1_pay1
  simp only [shapeCast_self]
  rfl

/-- The layer at an entry reads its three operands at that entry. -/
theorem lapSkip_at (Hh Ns Z : S50000x64.Idx → EReal) (h s z : S2000x64.Idx → EReal) (j : S2000x64.Idx)
    (i : S50000x64.Idx) (hh : h j = Hh i) (hs : s j = Ns i) (hz : z j = Z i) :
    lapSkip h s z j = lapSkip Hh Ns Z i := by
  simp only [lapSkip_apply, hh, hs, hz]

/-- The printed index maps over the grid: the row-blocked windows are at block (t, 0), the whole-array windows at the
    origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The whole-array function the region computes of the arrays it finds. -/
abbrev whole (c : Dev nD) : S50000x64.Idx → EReal :=
  lapSkip (V c main_v0) (V c main_v8)
    (affine (A := 50000) (K := 128) (C := 64) (V c main_arg1) (V c main_arg5) (V c main_arg6))

/-- What point t writes back is block t of that function. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x64) hz2, View.ld_unit_zero (S := S64) hz1,
    View.ld_unit_zero (S := S2000x64) hz2]
  rw [pay_eq]
  obtain ⟨e00, e01, e10, e11, e20, e21, e30, e31, e40, e50, e51⟩ := idx_facts t
  funext j
  refine lapSkip_at (V c main_v0) (V c main_v8)
    (affine (A := 50000) (K := 128) (C := 64) (V c main_arg1) (V c main_arg5) (V c main_arg6))
    (iblk1 V c 1 t) (iblk1 V c 2 t)
    (affine (A := 2000) (K := 128) (C := 64) (iblk1 V c 0 t) (iblk1 V c 3 t) (iblk1 V c 4 t)) j
    (((cfg1.win 5).blk t).view.emb j) ?_ ?_ ?_
  · show V c main_v0 (((cfg1.win 1).blk t).view.emb j) = V c main_v0 (((cfg1.win 5).blk t).view.emb j)
    refine congrArg (V c main_v0) (funext fun a => Fin.ext ?_)
    match a with
    | ⟨0, _⟩ =>
      show win1_1.index t (0 : Fin 2) * 2000 + 1 * (j 0).val = win1_5.index t (0 : Fin 2) * 2000 + 1 * (j 0).val
      rw [e10, e50]
    | ⟨1, _⟩ =>
      show win1_1.index t (1 : Fin 2) * 64 + 1 * (j 1).val = win1_5.index t (1 : Fin 2) * 64 + 1 * (j 1).val
      rw [e11, e51]
  · show V c main_v8 (((cfg1.win 2).blk t).view.emb j) = V c main_v8 (((cfg1.win 5).blk t).view.emb j)
    refine congrArg (V c main_v8) (funext fun a => Fin.ext ?_)
    match a with
    | ⟨0, _⟩ =>
      show win1_2.index t (0 : Fin 2) * 2000 + 1 * (j 0).val = win1_5.index t (0 : Fin 2) * 2000 + 1 * (j 0).val
      rw [e20, e50]
    | ⟨1, _⟩ =>
      show win1_2.index t (1 : Fin 2) * 64 + 1 * (j 1).val = win1_5.index t (1 : Fin 2) * 64 + 1 * (j 1).val
      rw [e21, e51]
  · refine affine_rows (V c main_arg1) (V c main_arg5) (V c main_arg6) (iblk1 V c 0 t) (iblk1 V c 3 t) (iblk1 V c 4 t) j
      (((cfg1.win 5).blk t).view.emb j) ?_ ?_ ?_ ?_
    · intro k
      show V c main_arg1 (((cfg1.win 0).blk t).view.emb (ix2 (j 0) k)) = V c main_arg1 _
      refine congrArg (V c main_arg1) (funext fun a => Fin.ext ?_)
      match a with
      | ⟨0, _⟩ =>
        show win1_0.index t (0 : Fin 2) * 2000 + 1 * (j 0).val = win1_5.index t (0 : Fin 2) * 2000 + 1 * (j 0).val
        rw [e00, e50]
      | ⟨1, _⟩ =>
        show win1_0.index t (1 : Fin 2) * 128 + 1 * k.val = k.val
        rw [e01]; omega
    · funext y
      show V c main_arg5 (((cfg1.win 3).blk t).view.emb y) = V c main_arg5 y
      refine congrArg (V c main_arg5) (funext fun a => Fin.ext ?_)
      match a with
      | ⟨0, _⟩ => show win1_3.index t (0 : Fin 2) * 128 + 1 * (y 0).val = (y 0).val; rw [e30]; omega
      | ⟨1, _⟩ => show win1_3.index t (1 : Fin 2) * 64 + 1 * (y 1).val = (y 1).val; rw [e31]; omega
    · funext y
      show V c main_arg6 (((cfg1.win 4).blk t).view.emb y) = V c main_arg6 y
      refine congrArg (V c main_arg6) (funext fun a => Fin.ext ?_)
      match a with
      | ⟨0, _⟩ => show win1_4.index t (0 : Fin 1) * 64 + 1 * (y 0).val = (y 0).val; rw [e40]; omega
    · show (j 1).val = win1_5.index t (1 : Fin 2) * 64 + 1 * (j 1).val
      rw [e51]; omega

/-- An index of the result array is in point t's block iff each coordinate is in the block's range on its axis. -/
theorem mem_blk (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v9).slice (win1_5.rect t)).set ↔ _
  rw [View.set_slice_whole, Rect.mem_set_unit]
  exact Iff.rfl

/-- Row r of the result is in the block of point r / 2000. -/
theorem cover (i : S50000x64.Idx) :
    ∃ t : Fin cfg1.N, (cfg1.win 5).flush t = true ∧ i ∈ ((cfg1.win 5).blk t).view.set := by
  have h0 : (i 0).val < 50000 := (i 0).isLt
  have h1 : (i 1).val < 64 := (i 1).isLt
  have hN : cfg1.N = 25 := N_1
  let t : Fin cfg1.N := ⟨(i 0).val / 2000, by rw [hN]; omega⟩
  obtain ⟨-, -, -, -, -, -, -, -, -, e50, e51⟩ := idx_facts t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e50]; show (i 0).val / 2000 * 2000 ≤ (i 0).val ∧ (i 0).val < (i 0).val / 2000 * 2000 + 2000; omega
  | ⟨1, _⟩ =>
    show win1_5.index t (1 : Fin 2) * 64 ≤ (i 1).val ∧ (i 1).val < win1_5.index t (1 : Fin 2) * 64 + 64
    rw [e51]; omega

/-- The result array after the region: the layer of the arrays the region found. -/
theorem final (c : Dev nD) : (dat1 V c).arrAt 5 cfg1.N = whole V c :=
  (dat1 V c).arrAt_eq_of_cover 5 _ (fun t _ => flushed_eq V c t) cover

end Cert.KernelIdeal.Region1

end
-- ==== Proof.Neigh.lean ====
/-
  The neighbour sums, as the host computes them from the node features and the index array.

  An index below zero is wrapped once by the row count (the indexing convention), the wrapped indices pick rows of the
  feature array (a row gather: for node r and slot d the whole 64-entry row), and the 16 gathered rows of each node are
  added up.  Both programs spell exactly these operations, so the sums are kept as ONE function of (h, structure) and
  never opened: all that is used of it is that equal feature arrays give equal sums.
-/
import Idealize.ShloMosaic.PureOps.Ideal

noncomputable section

namespace Cert.Neigh

open Idealize.ShloMosaic

abbrev SN : Shape := ⟨2, ![50000, 64]⟩
abbrev SI : Shape := ⟨2, ![50000, 16]⟩
abbrev SI1 : Shape := ⟨3, ![50000, 16, 1]⟩
abbrev SG : Shape := ⟨3, ![50000, 16, 64]⟩
abbrev S0 : Shape := ⟨0, ![]⟩

/-- s[r] = Σ_{d<16} h[wrap(structure[r, d])], the wrap adding 50000 to a negative index. -/
def neighSum (gd : GatherDims SN SI1 SG) (hb : S0.BroadcastsInDim SI (![] : Fin 0 → Fin SI.rank))
    (hb1 : SI.BroadcastsInDim SI1 (![0, 1] : Fin 2 → Fin SI1.rank)) (hred : SG.ReducesTo [1] SN) (h0 : 0 < S0.numel)
    (h : (⟨SN, .f32⟩ : BufTy).Contents (Elt Ideal)) (s : (⟨SI, .i32⟩ : BufTy).Contents (Elt Ideal)) :
    (⟨SN, .f32⟩ : BufTy).Contents (Elt Ideal) :=
  Host.reduceAdd (F := Ideal)
    (Host.gather gd h
      ((broadcastInDim SI1 ![0, 1] hb1 : (⟨SI, .i32⟩ : BufTy).Contents (Elt Ideal) → (⟨SI1, .i32⟩ : BufTy).Contents (Elt Ideal))
        ((select : (⟨SI, .i1⟩ : BufTy).Contents (Elt Ideal) → (⟨SI, .i32⟩ : BufTy).Contents (Elt Ideal) → (⟨SI, .i32⟩ : BufTy).Contents (Elt Ideal) → (⟨SI, .i32⟩ : BufTy).Contents (Elt Ideal))
          ((cmpi .slt : (⟨SI, .i32⟩ : BufTy).Contents (Elt Ideal) → (⟨SI, .i32⟩ : BufTy).Contents (Elt Ideal) → (⟨SI, .i1⟩ : BufTy).Contents (Elt Ideal)) s
            ((broadcastInDim SI ![] hb : (⟨S0, .i32⟩ : BufTy).Contents (Elt Ideal) → (⟨SI, .i32⟩ : BufTy).Contents (Elt Ideal)) (constantI S0 32 0#32)))
          ((addi : (⟨SI, .i32⟩ : BufTy).Contents (Elt Ideal) → (⟨SI, .i32⟩ : BufTy).Contents (Elt Ideal) → (⟨SI, .i32⟩ : BufTy).Contents (Elt Ideal)) s
            ((broadcastInDim SI ![] hb : (⟨S0, .i32⟩ : BufTy).Contents (Elt Ideal) → (⟨SI, .i32⟩ : BufTy).Contents (Elt Ideal)) (constantI S0 32 50000#32)))
          s)))
    (constant (F := Ideal) S0 .f32 0x00000000#32) hred h0

end Cert.Neigh

end
-- ==== Proof.KernelValue.lean ====
/-
  The whole kernel program read as a value.

  The first call leaves h = x·w₁ + b₁ in its result array; the host operations between the calls leave the neighbour sums
  of h in theirs and touch nothing else; the second call then computes max ((16·h − s)·0.0625 + (g·w₂ + b₂), 0) from the
  arrays it finds, which are h, those sums, and the untouched arguments.  So the program's result is that one function of
  the seven argument arrays.
-/
import proofs.«150113_j87488483819569_1_alg».proof.Proof.KernelRun
import proofs.«150113_j87488483819569_1_alg».proof.Proof.Region1
import proofs.«150113_j87488483819569_1_alg».proof.Proof.Neigh
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Cert.Lib.Dense Cert.Spec

variable (m : (ℓ : Loc nD τ sig) → Buf (Elt Ideal) ℓ) (ρ : Dev nD → PrngReg)

/-- The neighbour sums, over this program's dimension records. -/
abbrev neigh (h : (⟨S50000x64, .f32⟩ : BufTy).Contents (Elt Ideal)) (s : (⟨S50000x16, .i32⟩ : BufTy).Contents (Elt Ideal)) :
    (⟨S50000x64, .f32⟩ : BufTy).Contents (Elt Ideal) :=
  Cert.Neigh.neighSum gather_S50000x64_S50000x16x1_S50000x16x64_2_0_n_n_0_2_164 bcast_S_S50000x16
    bcast_S50000x16_S50000x16x1_0_1 reducesTo_S50000x16x64_S50000x64_d1 h_S_ h s

/-- h: the projection of every node's features. -/
abbrev feat (c : Dev nD) : S50000x64.Idx → EReal :=
  affine (A := 50000) (K := 128) (C := 64) (m ((c : Thread nD τ).loc main_arg0)) (m ((c : Thread nD τ).loc main_arg3))
    (m ((c : Thread nD τ).loc main_arg4))

/-- The program's result as one function of its argument arrays. -/
def result (c : Dev nD) : S50000x64.Idx → EReal :=
  lapSkip (feat m c) (neigh (feat m c) (m ((c : Thread nD τ).loc main_arg2)))
    (affine (A := 50000) (K := 128) (C := 64) (m ((c : Thread nD τ).loc main_arg1)) (m ((c : Thread nD τ).loc main_arg5))
      (m ((c : Thread nD τ).loc main_arg6)))

/-! ## After the first call -/

theorem W1_v0 (c : Dev nD) : W1 m ρ c (Proc.devRef .tc main_v0) = feat m c :=
  (W1_arr m ρ c 3).trans (Region0.final (V0 m ρ) c)

theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg5 (c : Dev nD) : W1 m ρ c (Proc.devRef .tc main_arg5) = m ((c : Thread nD τ).loc main_arg5) :=
  W1_of_ne m ρ c main_arg5 (by decide)
theorem W1_arg6 (c : Dev nD) : W1 m ρ c (Proc.devRef .tc main_arg6) = m ((c : Thread nD τ).loc main_arg6) :=
  W1_of_ne m ρ c main_arg6 (by decide)

/-! ## After the host operations between the calls -/

theorem W2_v8 (c : Dev nD) :
    W2 m ρ c (Proc.devRef .tc main_v8)
      = neigh (W1 m ρ c (Proc.devRef .tc main_v0)) (W1 m ρ c (Proc.devRef .tc main_arg2)) := by
  show StableHlo.after hostOps1 (W1 m ρ c) (Proc.devRef .tc main_v8) = _
  after_results
  rfl

theorem W2_v0 (c : Dev nD) : W2 m ρ c (Proc.devRef .tc main_v0) = W1 m ρ c (Proc.devRef .tc main_v0) := by
  show StableHlo.after hostOps1 (W1 m ρ c) (Proc.devRef .tc main_v0) = _
  after_results <;> rfl
theorem W2_arg1 (c : Dev nD) : W2 m ρ c (Proc.devRef .tc main_arg1) = W1 m ρ c (Proc.devRef .tc main_arg1) := by
  show StableHlo.after hostOps1 (W1 m ρ c) (Proc.devRef .tc main_arg1) = _
  after_results <;> rfl
theorem W2_arg5 (c : Dev nD) : W2 m ρ c (Proc.devRef .tc main_arg5) = W1 m ρ c (Proc.devRef .tc main_arg5) := by
  show StableHlo.after hostOps1 (W1 m ρ c) (Proc.devRef .tc main_arg5) = _
  after_results <;> rfl
theorem W2_arg6 (c : Dev nD) : W2 m ρ c (Proc.devRef .tc main_arg6) = W1 m ρ c (Proc.devRef .tc main_arg6) := by
  show StableHlo.after hostOps1 (W1 m ρ c) (Proc.devRef .tc main_arg6) = _
  after_results <;> rfl

/-! ## After the second call -/

theorem W3_v9 (c : Dev nD) : W3 m ρ c (Proc.devRef .tc main_v9) = result m c := by
  have e0 : V2 m ρ c main_v0 = feat m c := (W2_v0 m ρ c).trans (W1_v0 m ρ c)
  have e8 : V2 m ρ c main_v8 = neigh (feat m c) (m ((c : Thread nD τ).loc main_arg2)) := by
    refine (W2_v8 m ρ c).trans ?_
    rw [W1_v0, W1_arg2]
  have e1 : V2 m ρ c main_arg1 = m ((c : Thread nD τ).loc main_arg1) := (W2_arg1 m ρ c).trans (W1_arg1 m ρ c)
  have e5 : V2 m ρ c main_arg5 = m ((c : Thread nD τ).loc main_arg5) := (W2_arg5 m ρ c).trans (W1_arg5 m ρ c)
  have e6 : V2 m ρ c main_arg6 = m ((c : Thread nD τ).loc main_arg6) := (W2_arg6 m ρ c).trans (W1_arg6 m ρ c)
  refine (W3_arr m ρ c 5).trans ((Region1.final (V2 m ρ) c).trans ?_)
  unfold Region1.whole result
  rw [e0, e8, e1, e5, e6]

/-- The run, read: the result array ends at `result` of the launch contents, the arguments unchanged. -/
theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W3_v9 m ρ c), (h c).2⟩) (Cert.KernelIdeal.Run.run_main m ρ)

end Cert.KernelIdeal.Whole

end
-- ==== Proof.RefValue.lean ====
/-
  The reference program read as the same function.

  Its run ends with the result at the composed term of its host operations.  The two dense layers (dot_general plus the
  bias through two broadcasts) are the affine maps of their operands; the neighbour sums are the same operations of h as
  the kernel program's; the normalisation is a quotient by 16.0 where the kernel multiplies by 0.0625, the same function
  on the extended reals; the rectifier is the maximum against a broadcast zero.
-/
import proofs.«150113_j87488483819569_1_alg».proof.Proof.Gen.ReferenceIdeal.Run
import proofs.«150113_j87488483819569_1_alg».proof.Proof.LibDense
import proofs.«150113_j87488483819569_1_alg».proof.Proof.Spec
import proofs.«150113_j87488483819569_1_alg».proof.Proof.Neigh
import Idealize.ShloMosaic.Lib.ValueIdx

noncomputable section

namespace Cert.ReferenceIdeal.RefValue

open Cert.ReferenceIdeal Cert.ReferenceIdeal.Gen
open Idealize.ShloMosaic Idealize.ShloMosaic.TcCoe Idealize.ShloMosaic.ValueIdx Idealize.SL.Sem
open Cert.Lib.Dense Cert.Spec

/-- The neighbour sums, over this program's dimension records. -/
abbrev neigh (h : (⟨S50000x64, .f32⟩ : BufTy).Contents (Elt Ideal)) (s : (⟨S50000x16, .i32⟩ : BufTy).Contents (Elt Ideal)) :
    (⟨S50000x64, .f32⟩ : BufTy).Contents (Elt Ideal) :=
  Cert.Neigh.neighSum gather_S50000x64_S50000x16x1_S50000x16x64_2_0_n_n_0_2_164 bcast_S_S50000x16
    bcast_S50000x16_S50000x16x1_0_1 reducesTo_S50000x16x64_S50000x64_d1 h_S_ h s

/-- A scalar constant broadcast to the whole array reads, at every entry, the extended real its word denotes. -/
theorem splat_apply (w : BitVec 32) (i : S50000x64.Idx) :
    broadcastInDim S50000x64 ![] bcast_S_S50000x64 (constant (F := Ideal) S_ .f32 w) i = Ideal.ofBits .f32 w :=
  (broadcastInDim_apply (![] : Fin 0 → Fin 2) bcast_S_S50000x64 _ i ix0 (fun d => d.elim0)).trans rfl

/-- The layer in the reference's spelling: a quotient by a broadcast 16.0, a maximum against a broadcast zero. -/
theorem layer_eq (A N Z : FVec Ideal S50000x64 .f32) :
    maximumf (addf (Host.divf (subf (mulf (broadcastInDim S50000x64 ![] bcast_S_S50000x64 (constant (F := Ideal) S_ .f32 0x41800000#32)) A) N)
        (broadcastInDim S50000x64 ![] bcast_S_S50000x64 (constant (F := Ideal) S_ .f32 0x41800000#32))) Z)
      (broadcastInDim S50000x64 ![] bcast_S_S50000x64 (constant (F := Ideal) S_ .f32 0x00000000#32))
    = lapSkip A N Z := by
  funext i
  rw [← lapSkip_div, maximumf_apply, addf_apply, splat_apply]
  show max (Ideal.div ((broadcastInDim S50000x64 ![] bcast_S_S50000x64 (constant (F := Ideal) S_ .f32 0x41800000#32)) i * A i - N i)
      ((broadcastInDim S50000x64 ![] bcast_S_S50000x64 (constant (F := Ideal) S_ .f32 0x41800000#32)) i) + Z i) _ = _
  rw [splat_apply]

/-- The reference's composed term is the layer of h = x·w₁ + b₁, its neighbour sums, and the skip g·w₂ + b₂. -/
theorem result_eq (x g : FVec Ideal S50000x128 .f32) (s : (⟨S50000x16, .i32⟩ : BufTy).Contents (Elt Ideal))
    (w1 w2 : FVec Ideal S128x64 .f32) (b1 b2 : FVec Ideal S64 .f32) :
    maximumf (addf (Host.divf (subf (mulf (broadcastInDim S50000x64 ![] bcast_S_S50000x64 (constant (F := Ideal) S_ .f32 0x41800000#32)) (addf (Host.dotGeneral dot_S50000x128_S128x64_S50000x64_1_0_0_1_n_n none x w1) (broadcastInDim S50000x64 ![0, 1] bcast_S1x64_S50000x64_0_1 (broadcastInDim S1x64 ![1] bcast_S64_S1x64_1 b1)))) (Host.reduceAdd (Host.gather gather_S50000x64_S50000x16x1_S50000x16x64_2_0_n_n_0_2_164 (addf (Host.dotGeneral dot_S50000x128_S128x64_S50000x64_1_0_0_1_n_n none x w1) (broadcastInDim S50000x64 ![0, 1] bcast_S1x64_S50000x64_0_1 (broadcastInDim S1x64 ![1] bcast_S64_S1x64_1 b1))) (broadcastInDim S50000x16x1 ![0, 1] bcast_S50000x16_S50000x16x1_0_1 (select (cmpi .slt s (broadcastInDim S50000x16 ![] bcast_S_S50000x16 (constantI S_ 32 0#32))) (addi s (broadcastInDim S50000x16 ![] bcast_S_S50000x16 (constantI S_ 32 50000#32))) s))) (constant (F := Ideal) S_ .f32 0x00000000#32) reducesTo_S50000x16x64_S50000x64_d1 h_S_)) (broadcastInDim S50000x64 ![] bcast_S_S50000x64 (constant (F := Ideal) S_ .f32 0x41800000#32))) (addf (Host.dotGeneral dot_S50000x128_S128x64_S50000x64_1_0_0_1_n_n none g w2) (broadcastInDim S50000x64 ![0, 1] bcast_S1x64_S50000x64_0_1 (broadcastInDim S1x64 ![1] bcast_S64_S1x64_1 b2)))) (broadcastInDim S50000x64 ![] bcast_S_S50000x64 (constant (F := Ideal) S_ .f32 0x00000000#32))
    = lapSkip (affine (A := 50000) (K := 128) (C := 64) x w1 b1)
        (neigh (affine (A := 50000) (K := 128) (C := 64) x w1 b1) s)
        (affine (A := 50000) (K := 128) (C := 64) g w2 b2) := by
  have h1 : addf (Host.dotGeneral dot_S50000x128_S128x64_S50000x64_1_0_0_1_n_n none x w1) (broadcastInDim S50000x64 ![0, 1] bcast_S1x64_S50000x64_0_1 (broadcastInDim S1x64 ![1] bcast_S64_S1x64_1 b1))
      = affine (A := 50000) (K := 128) (C := 64) x w1 b1 :=
    host_affine (A := 50000) (K := 128) (C := 64) x w1 b1 bcast_S64_S1x64_1 bcast_S1x64_S50000x64_0_1 none
  have h2 : addf (Host.dotGeneral dot_S50000x128_S128x64_S50000x64_1_0_0_1_n_n none g w2) (broadcastInDim S50000x64 ![0, 1] bcast_S1x64_S50000x64_0_1 (broadcastInDim S1x64 ![1] bcast_S64_S1x64_1 b2))
      = affine (A := 50000) (K := 128) (C := 64) g w2 b2 :=
    host_affine (A := 50000) (K := 128) (C := 64) g w2 b2 bcast_S64_S1x64_1 bcast_S1x64_S50000x64_0_1 none
  rw [h1, h2]
  exact layer_eq _ _ _

end Cert.ReferenceIdeal.RefValue

end
-- ==== Proof.lean ====
/- A graph layer with a Laplacian branch and a skip branch: the kernel program equals its reference over the extended reals.

   Both programs compute, for node features x : [50000, 128], skip features g : [50000, 128] and 16 neighbour indices a
   node,
       h   = x·w₁ + b₁,
       s_r = Σ_{d<16} h[structure[r, d]]   (a negative index wrapped once by 50000),
       out = max ((16·h − s)/16 + (g·w₂ + b₂), 0).
   The kernel program computes h in one pallas_call (25 row blocks of 2000, operands narrowed to bf16, which is the
   identity on the extended reals, a product into a zero accumulator), the sums s on the host with the reference's own
   operations, and the rest in a second pallas_call of 25 row blocks, the normalisation spelt as a product with 0.0625.
   The reference spells the dense layers as dot_general plus a broadcast bias and the normalisation as a quotient by 16.0.
   On the extended reals x / 16 = x · (1/16) for EVERY x, infinite ones included, and 0.0625 is exactly 1/16, so the two
   results are one function of the arguments, entry by entry; the precondition (finite inputs) is not used.
   The three frames are the generated ones (the reference's is its run with the result dropped); the ideal pass rewrote
   nothing, so the kernel's idealization claim is trivial. -/
import proofs.«150113_j87488483819569_1_alg».proof.Defs
import proofs.«150113_j87488483819569_1_alg».proof.Proof.Gen.Kernel
import proofs.«150113_j87488483819569_1_alg».proof.Proof.Gen.Kernel.Skeleton
import proofs.«150113_j87488483819569_1_alg».proof.Proof.Gen.Kernel.Launch
import proofs.«150113_j87488483819569_1_alg».proof.Proof.Gen.Kernel.Points
import proofs.«150113_j87488483819569_1_alg».proof.Proof.Gen.Kernel.Frame
import proofs.«150113_j87488483819569_1_alg».proof.Proof.Gen.KernelIdeal
import proofs.«150113_j87488483819569_1_alg».proof.Proof.Gen.KernelIdeal.Skeleton
import proofs.«150113_j87488483819569_1_alg».proof.Proof.Gen.KernelIdeal.Launch
import proofs.«150113_j87488483819569_1_alg».proof.Proof.Gen.KernelIdeal.Points
import proofs.«150113_j87488483819569_1_alg».proof.Proof.Gen.KernelIdeal.Frame
import proofs.«150113_j87488483819569_1_alg».proof.Proof.Gen.ReferenceIdeal
import proofs.«150113_j87488483819569_1_alg».proof.Proof.Gen.ReferenceIdeal.Run
import proofs.«150113_j87488483819569_1_alg».proof.Proof.Gen.Pre_finite_inputs
import proofs.«150113_j87488483819569_1_alg».proof.Proof.KernelValue
import proofs.«150113_j87488483819569_1_alg».proof.Proof.RefValue
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the same function of arguments that agree: the kernel program's result read
    region by region, the reference's composed term rewritten to it. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact Cert.ReferenceIdeal.RefValue.result_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
